-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S2000x512 : Shape := ⟨2, ![2000, 512]⟩
abbrev S2000x16 : Shape := ⟨2, ![2000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S2000x7 : Shape := ⟨2, ![2000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 137
  | .vmem => 10
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x7, .f32⟩
  | 112 => ⟨S3300000x1, .f32⟩
  | 113 => ⟨S3300000x7, .f32⟩
  | 114 => ⟨S3300000x7, .f32⟩
  | 115 => ⟨S_, .f32⟩
  | 116 => ⟨S100000x7, .f32⟩
  | 117 => ⟨S3300000x1, .i32⟩
  | 118 => ⟨S100000x7, .f32⟩
  | 119 => ⟨S1x7, .f32⟩
  | 120 => ⟨S100000x7, .f32⟩
  | 121 => ⟨S100000x7, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x7, .f32⟩
  | 1 => ⟨S100000x7, .f32⟩
  | 2 => ⟨S100000x7, .f32⟩
  | 3 => ⟨S_, .f32⟩
  | 4 => ⟨S100000, .f32⟩
  | 5 => ⟨S100000x1, .f32⟩
  | 6 => ⟨S100000x1, .f32⟩
  | 7 => ⟨S100000x7, .f32⟩
  | 8 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x7, .f32⟩
  | .local _ .vmem, ⟨8, _⟩ => ⟨S2000x7, .f32⟩
  | .local _ .vmem, ⟨9, _⟩ => ⟨S2000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x7_S16x7_0_0 : ∀ a, (![0, 0] : Fin 2 → Nat) a + S16x7.size a ≤ S16x7.size a
  h_S16x7 : 0 < S16x7.numel
  inb_S2000x7_S2000x7_0_0 : ∀ a, (![0, 0] : Fin 2 → Nat) a + S2000x7.size a ≤ S2000x7.size a
  h_S2000x7 : 0 < S2000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S2000x512_S512x16_S2000x16_1_0_0_1_n_n_wf : DotDims.WF S2000x512 S512x16 S2000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x7_S2000x7_1_0_0_1_n_n_wf : DotDims.WF S2000x16 S16x7 S2000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x7.size a ≤ S100000x7.size a
  hwx1_2 : ∀ i : grid1.Coords, EltTy.bits .f32 = 32 ∨ (Rect.block (s := S100000x7) S2000x7.size (cc1_transform_2 i) (hinb1_2 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x7, .f32⟩
  | 112 => ⟨S3300000x1, .f32⟩
  | 113 => ⟨S3300000x7, .f32⟩
  | 114 => ⟨S3300000x7, .f32⟩
  | 115 => ⟨S_, .f32⟩
  | 116 => ⟨S100000x7, .f32⟩
  | 117 => ⟨S3300000x1, .i32⟩
  | 118 => ⟨S100000x7, .f32⟩
  | 119 => ⟨S1x7, .f32⟩
  | 120 => ⟨S100000x7, .f32⟩
  | 121 => ⟨S100000x7, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x7, .f32⟩
  | 1 => ⟨S100000x7, .f32⟩
  | 2 => ⟨S100000x7, .f32⟩
  | 3 => ⟨S_, .f32⟩
  | 4 => ⟨S100000, .f32⟩
  | 5 => ⟨S100000x1, .f32⟩
  | 6 => ⟨S100000x1, .f32⟩
  | 7 => ⟨S100000x7, .f32⟩
  | 8 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Layers.lean ====
/-
  The two linear layers, each as ONE matrix product of whole arrays.

  The region walks the 100000 rows of `x` in 50 blocks of 2000 rows; at block `t` it multiplies the block
  `x[2000 t .. 2000 t + 2000, :]` by the whole weight `W` (both operands first narrowed to bf16, which on the extended
  reals changes nothing) into a zero accumulator and writes the product to rows `2000 t .. 2000 t + 2000` of the
  result. Entry `(p, q)` of that block is `∑ k, x (2000 t + p, k) · W (k, q)`, which is entry `(2000 t + p, q)` of
  the whole product `x · W`: a row of a matrix product depends on that row of the left factor only. The 50 blocks
  tile the result, so after the region the result array is `x · W`.
-/
import proofs.«160951_j2946347565080_1_alg».proof.Proof.Gen.KernelIdeal.Frame
import proofs.«160951_j2946347565080_1_alg».proof.Proof.LibRowDims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layers

open Cert.KernelIdeal Cert.KernelIdeal.Gen Idealize.ShloMosaic Idealize.ShloMosaic.TcCoe Idealize.SL.Sem
open Idealize.ShloMosaic.Pipeline (Dat Cfg Window)
open Idealize.ShloMosaic.ValueIdx Idealize.ShloMosaic.RowDims

/-- The offset of a whole-buffer access is zero on both axes. -/
theorem off_zero : (![0, 0] : Fin 2 → Nat) = fun _ => 0 := funext fun a => by fin_cases a <;> rfl

/-! ## Layer 1: `[100000, 512] × [512, 16]` -/

/-- The block product's dimension numbers are the plain ones: contract the left factor's columns with the right
    factor's rows. -/
theorem dims0_plain : dot_S2000x512_S512x16_S2000x16_1_0_0_1_n_n = DotDims.plain 2000 512 16 := rfl

/-- The whole product `x · W` of the layer, on the extended reals. -/
abbrev whole0 (x : FVec Ideal S100000x512 .f32) (w : FVec Ideal S512x16 .f32) : FVec Ideal S100000x16 .f32 :=
  Host.dotGeneral (DotDims.plain 100000 512 16) none x w

/-- Entry `(p, q)` of a block product: the sum over the contracted coordinate. -/
theorem block0_apply (xb : FVec Ideal S2000x512 .f32) (wb : FVec Ideal S512x16 .f32) (p : Fin 2000) (q : Fin 16) :
    k0_pay1 (F := Ideal) xb wb (ix2 p q) = ∑ k : Fin 512, xb (ix2 p k) * wb (ix2 k q) := by
  show FloatOps.matmul (F := Ideal) dot_S2000x512_S512x16_S2000x16_1_0_0_1_n_n none xb wb (constant S2000x16 .f32 0x00000000#32) (ix2 p q) = _
  rw [dims0_plain]
  exact matmul_plain_zero_apply none xb wb p q

/-- A block of rows times the weight is those rows of the whole product: if the block `xb` holds rows
    `r₀ .. r₀ + 2000` of `x` and `wb` is `w`, then entry `j` of the block product is the entry of `x · w` in row
    `r₀ + j₀` and column `j₁`. -/
theorem block0_is_rows (x : FVec Ideal S100000x512 .f32) (w : FVec Ideal S512x16 .f32)
    (xb : FVec Ideal S2000x512 .f32) (wb : FVec Ideal S512x16 .f32) (r₀ : Nat)
    (hx : ∀ (y : S2000x512.Idx) (i : S100000x512.Idx), (i 0).val = r₀ + (y 0).val → (i 1).val = (y 1).val → xb y = x i)
    (hw : ∀ (y : S512x16.Idx), wb y = w y)
    (j : S2000x16.Idx) (i : S100000x16.Idx) (h0 : (i 0).val = r₀ + (j 0).val) (h1 : (i 1).val = (j 1).val) :
    k0_pay1 (F := Ideal) xb wb j = whole0 x w i := by
  obtain ⟨p, q, rfl⟩ : ∃ (p : Fin 2000) (q : Fin 16), j = ix2 p q := ⟨j 0, j 1, eq_ix2 j⟩
  obtain ⟨a, b, rfl⟩ : ∃ (a : Fin 100000) (b : Fin 16), i = ix2 a b := ⟨i 0, i 1, eq_ix2 i⟩
  rw [block0_apply]
  show _ = FloatOps.dotGeneral (DotDims.plain 100000 512 16) none .single x w (ix2 a b)
  rw [dotGeneral_plain_apply]
  have hb : b = q := Fin.ext h1
  subst hb
  refine Finset.sum_congr rfl fun k _ => ?_
  rw [hx (ix2 p k) (ix2 a k) h0 rfl, hw]

section Region0

variable (V : (c : Dev nD) → (b : Ref sig .tc) → Buf (Elt Ideal) ((c : Thread nD τ).loc b))

/-- The printed index maps, decided over the 50 grid points: the row block of `x` and of the result is block `t`,
    column block 0; the weight is always its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 50 row blocks of the result is some grid point's. -/
theorem idx0_onto : ∀ q : Fin 50, ∃ t : Fin cfg0.N, win0_2.index t (0 : Fin 2) = q.val ∧ win0_2.index t (1 : Fin 2) = 0 :=
  (by decide +kernel : ∀ q : Fin 50, ∃ t : Fin grid0.N, win0_2.index t (0 : Fin 2) = q.val ∧ win0_2.index t (1 : Fin 2) = 0)

/-- What grid point `t` writes back is rows `2000 t .. 2000 t + 2000` of `x · W`, for `x` and `W` the two argument
    arrays as the region finds them. -/
theorem flushed0 (c : Dev nD) (t : Fin cfg0.N) :
    (dat0 V c).flushed 2 t = ((cfg0.win 2).blk t).view.read (Elt Ideal) (whole0 (V c main_arg0) (V c main_arg2)) := by
  show (cfg0.win 2).cut (grid0.coords t) ((dat0 V c).after 2 t) = _
  rw [after0_2]
  unfold out0_2
  rw [View.canon_unit_zero off_zero]
  simp only [View.ld_unit_zero (S := S2000x512) off_zero, View.ld_unit_zero (S := S512x16) off_zero]
  obtain ⟨e0, e1, e2, e3, e4, e5⟩ := idx0 t
  funext j
  show k0_pay1 (F := Ideal) (iblk0 V c 0 t) (iblk0 V c 1 t) j
    = whole0 (V c main_arg0) (V c main_arg2) (((cfg0.win 2).blk t).view.emb j)
  refine block0_is_rows (V c main_arg0) (V c main_arg2) (iblk0 V c 0 t) (iblk0 V c 1 t) (t.val * 2000) ?_ ?_ j _ ?_ ?_
  · -- the block of `x` at point `t` holds rows 2000 t .. of `x`
    intro y i h0 h1
    show V c main_arg0 (((cfg0.win 0).blk t).view.emb y) = V c main_arg0 i
    refine congrArg _ ?_
    funext a; apply Fin.ext
    match a with
    | ⟨0, _⟩ => show win0_0.index t (0 : Fin 2) * 2000 + 1 * (y 0).val = (i 0).val; omega
    | ⟨1, _⟩ => show win0_0.index t (1 : Fin 2) * 512 + 1 * (y 1).val = (i 1).val; omega
  · -- the block of the weight is the whole weight
    intro y
    show V c main_arg2 (((cfg0.win 1).blk t).view.emb y) = V c main_arg2 y
    refine congrArg _ ?_
    funext a; apply Fin.ext
    match a with
    | ⟨0, _⟩ => show win0_1.index t (0 : Fin 2) * 512 + 1 * (y 0).val = (y 0).val; omega
    | ⟨1, _⟩ => show win0_1.index t (1 : Fin 2) * 16 + 1 * (y 1).val = (y 1).val; omega
  · show win0_2.index t (0 : Fin 2) * 2000 + 1 * (j 0).val = t.val * 2000 + (j 0).val; omega
  · show win0_2.index t (1 : Fin 2) * 16 + 1 * (j 1).val = (j 1).val; omega

/-- An index of the result is in point `t`'s block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v7).slice (win0_2.rect t)).set ↔ _
  rw [View.set_slice_whole, Rect.mem_set_unit]
  exact Iff.rfl

/-- The 50 row blocks tile the result: row `r` lies in block `r / 2000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, q0, q1⟩ := idx0_onto ⟨(i 0).val / 2000, by omega⟩
  have q0' : win0_2.index t (0 : Fin 2) = (i 0).val / 2000 := q0
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 16 ≤ (i 1).val ∧ (i 1).val < win0_2.index t (1 : Fin 2) * 16 + 16
    omega

/-- After the region the result array is `x · W`, for `x` and `W` the two argument arrays as the region finds them. -/
theorem region0_array (c : Dev nD) :
    (dat0 V c).arrAt 2 cfg0.N = whole0 (V c main_arg0) (V c main_arg2) :=
  (dat0 V c).arrAt_eq_of_cover 2 _ (fun t _ => flushed0 V c t) cover0

end Region0

/-! ## Layer 2: `[100000, 16] × [16, 7]`

The same walk at the second layer's sizes: 50 blocks of 2000 rows of the hidden activations against the whole second
weight; the body first casts the block to its own shape, which changes nothing. -/

/-- The block product's dimension numbers are the plain ones. -/
theorem dims1_plain : dot_S2000x16_S16x7_S2000x7_1_0_0_1_n_n = DotDims.plain 2000 16 7 := rfl

/-- The whole product `h · W₂` of the layer, on the extended reals. -/
abbrev whole1 (x : FVec Ideal S100000x16 .f32) (w : FVec Ideal S16x7 .f32) : FVec Ideal S100000x7 .f32 :=
  Host.dotGeneral (DotDims.plain 100000 16 7) none x w

/-- Entry `(p, q)` of a block product: the sum over the contracted coordinate. -/
theorem block1_apply (xb : FVec Ideal S2000x16 .f32) (wb : FVec Ideal S16x7 .f32) (p : Fin 2000) (q : Fin 7) :
    k1_pay1 (F := Ideal) xb wb (ix2 p q) = ∑ k : Fin 16, xb (ix2 p k) * wb (ix2 k q) := by
  show FloatOps.matmul (F := Ideal) dot_S2000x16_S16x7_S2000x7_1_0_0_1_n_n none
    (shapeCast S2000x16 xb shapeCasts_S2000x16_S2000x16) wb (constant S2000x7 .f32 0x00000000#32) (ix2 p q) = _
  rw [shapeCast_self, dims1_plain]
  exact matmul_plain_zero_apply none xb wb p q

/-- A block of rows times the weight is those rows of the whole product. -/
theorem block1_is_rows (x : FVec Ideal S100000x16 .f32) (w : FVec Ideal S16x7 .f32)
    (xb : FVec Ideal S2000x16 .f32) (wb : FVec Ideal S16x7 .f32) (r₀ : Nat)
    (hx : ∀ (y : S2000x16.Idx) (i : S100000x16.Idx), (i 0).val = r₀ + (y 0).val → (i 1).val = (y 1).val → xb y = x i)
    (hw : ∀ (y : S16x7.Idx), wb y = w y)
    (j : S2000x7.Idx) (i : S100000x7.Idx) (h0 : (i 0).val = r₀ + (j 0).val) (h1 : (i 1).val = (j 1).val) :
    k1_pay1 (F := Ideal) xb wb j = whole1 x w i := by
  obtain ⟨p, q, rfl⟩ : ∃ (p : Fin 2000) (q : Fin 7), j = ix2 p q := ⟨j 0, j 1, eq_ix2 j⟩
  obtain ⟨a, b, rfl⟩ : ∃ (a : Fin 100000) (b : Fin 7), i = ix2 a b := ⟨i 0, i 1, eq_ix2 i⟩
  rw [block1_apply]
  show _ = FloatOps.dotGeneral (DotDims.plain 100000 16 7) none .single x w (ix2 a b)
  rw [dotGeneral_plain_apply]
  have hb : b = q := Fin.ext h1
  subst hb
  refine Finset.sum_congr rfl fun k _ => ?_
  rw [hx (ix2 p k) (ix2 a k) h0 rfl, hw]

section Region1

variable (V : (c : Dev nD) → (b : Ref sig .tc) → Buf (Elt Ideal) ((c : Thread nD τ).loc b))

/-- The printed index maps, decided over the 50 grid points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every one of the 50 row blocks of the result is some grid point's. -/
theorem idx1_onto : ∀ q : Fin 50, ∃ t : Fin cfg1.N, win1_2.index t (0 : Fin 2) = q.val ∧ win1_2.index t (1 : Fin 2) = 0 :=
  (by decide +kernel : ∀ q : Fin 50, ∃ t : Fin grid1.N, win1_2.index t (0 : Fin 2) = q.val ∧ win1_2.index t (1 : Fin 2) = 0)

/-- What grid point `t` writes back is rows `2000 t .. 2000 t + 2000` of `h · W₂`, for `h` and `W₂` the region's two
    input arrays as it finds them. -/
theorem flushed1 (c : Dev nD) (t : Fin cfg1.N) :
    (dat1 V c).flushed 2 t = ((cfg1.win 2).blk t).view.read (Elt Ideal) (whole1 (V c main_v47) (V c main_arg4)) := by
  show (cfg1.win 2).cut (grid1.coords t) ((dat1 V c).after 2 t) = _
  rw [after1_2]
  unfold out1_2
  rw [View.canon_unit_zero off_zero]
  simp only [View.ld_unit_zero (S := S2000x16) off_zero, View.ld_unit_zero (S := S16x7) off_zero]
  obtain ⟨e0, e1, e2, e3, e4, e5⟩ := idx1 t
  funext j
  show k1_pay1 (F := Ideal) (iblk1 V c 0 t) (iblk1 V c 1 t) j
    = whole1 (V c main_v47) (V c main_arg4) (((cfg1.win 2).blk t).view.emb j)
  refine block1_is_rows (V c main_v47) (V c main_arg4) (iblk1 V c 0 t) (iblk1 V c 1 t) (t.val * 2000) ?_ ?_ j _ ?_ ?_
  · intro y i h0 h1
    show V c main_v47 (((cfg1.win 0).blk t).view.emb y) = V c main_v47 i
    refine congrArg _ ?_
    funext a; apply Fin.ext
    match a with
    | ⟨0, _⟩ => show win1_0.index t (0 : Fin 2) * 2000 + 1 * (y 0).val = (i 0).val; omega
    | ⟨1, _⟩ => show win1_0.index t (1 : Fin 2) * 16 + 1 * (y 1).val = (i 1).val; omega
  · intro y
    show V c main_arg4 (((cfg1.win 1).blk t).view.emb y) = V c main_arg4 y
    refine congrArg _ ?_
    funext a; apply Fin.ext
    match a with
    | ⟨0, _⟩ => show win1_1.index t (0 : Fin 2) * 16 + 1 * (y 0).val = (y 0).val; omega
    | ⟨1, _⟩ => show win1_1.index t (1 : Fin 2) * 7 + 1 * (y 1).val = (y 1).val; omega
  · show win1_2.index t (0 : Fin 2) * 2000 + 1 * (j 0).val = t.val * 2000 + (j 0).val; omega
  · show win1_2.index t (1 : Fin 2) * 7 + 1 * (j 1).val = (j 1).val; omega

/-- An index of the result is in point `t`'s block iff each coordinate is in the block's range on its axis. -/
theorem mem_blk1 (t : Fin cfg1.N) (i : S100000x7.Idx) :
    i ∈ ((cfg1.win 2).blk t).view.set ↔ ∀ a : Fin 2, win1_2.index t a * S2000x7.size a ≤ (i a).val
      ∧ (i a).val < win1_2.index t a * S2000x7.size a + S2000x7.size a := by
  show i ∈ ((View.whole main_v48).slice (win1_2.rect t)).set ↔ _
  rw [View.set_slice_whole, Rect.mem_set_unit]
  exact Iff.rfl

/-- The 50 row blocks tile the result: row `r` lies in block `r / 2000`. -/
theorem cover1 (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  obtain ⟨t, q0, q1⟩ := idx1_onto ⟨(i 0).val / 2000, by omega⟩
  have q0' : win1_2.index t (0 : Fin 2) = (i 0).val / 2000 := q0
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 7 ≤ (i 1).val ∧ (i 1).val < win1_2.index t (1 : Fin 2) * 7 + 7
    omega

/-- After the region the result array is `h · W₂`, for `h` and `W₂` the region's two input arrays as it finds them. -/
theorem region1_array (c : Dev nD) :
    (dat1 V c).arrAt 2 cfg1.N = whole1 (V c main_v47) (V c main_arg4) :=
  (dat1 V c).arrAt_eq_of_cover 2 _ (fun t _ => flushed1 V c t) cover1

end Region1

end Cert.KernelIdeal.Layers

end
-- ==== Proof.Stages.lean ====
/-
  The two programs, stage by stage.

  Both programs compute, in this order: the edge lists `src` and `dst` (the given edges followed by one self loop per
  node); the first layer's product `x · W₁`; the normalised aggregation of its rows along the edges, the bias and the
  rectifier; the second layer's product; the same aggregation, the bias and the row-wise log-softmax. They differ only
  in how the two products are computed: the reference by one contraction of the whole arrays, the kernel block of rows
  by block of rows (module Layers: the same array). Every other operation is the same function on both sides, so a
  stage maps contents that agree on the buffers it reads to contents that agree on the buffer it writes.

  The reference's operation list is cut where the stages end, before and after each product and after the two
  concatenations that build `src` and `dst`; after that cut no later stage contains a concatenation of computed
  operands: it reads `src` and `dst` as buffers.
-/
import proofs.«160951_j2946347565080_1_alg».proof.Proof.KernelRun
import proofs.«160951_j2946347565080_1_alg».proof.Proof.Layers
import proofs.«160951_j2946347565080_1_alg».proof.Proof.RefRun
import Idealize.ShloMosaic.Lib.StableHlo.Run
import Idealize.ShloMosaic.Lib.Pipeline.Frame

set_option maxRecDepth 16384

noncomputable section

namespace Cert.Stages

open Idealize.ShloMosaic Idealize.ShloMosaic.StableHlo Idealize.ShloMosaic.TcCoe Idealize.SL.Sem

open Cert.KernelIdeal renaming sig → ksig, τ → kτ, nD → knD,
  main_arg0 → ka0, main_arg1 → ka1, main_arg2 → ka2, main_arg3 → ka3, main_arg4 → ka4, main_arg5 → ka5,
  main_v3 → kv3, main_v6 → kv6, main_v7 → kv7, main_v47 → kv47, main_v48 → kv48, main_v88 → kv88
open Cert.ReferenceIdeal renaming sig → rsig, τ → rτ, nD → rnD,
  main_arg0 → ra0, main_arg1 → ra1, main_arg2 → ra2, main_arg3 → ra3, main_arg4 → ra4, main_arg5 → ra5,
  main_v3 → rv3, main_v6 → rv6, main_v7 → rv7, main_v47 → rv47, main_v48 → rv48, main_v88 → rv88

variable {F : FTy → Type} [FloatOps F]

/-! ## The reference's fold, cut at the stage boundaries -/

/-- A fold over a list is the fold over its tail end from the fold over its first `n` operations. -/
theorem after_take_drop {τ : Topo} {sig : RefSig} {Val : EltTy → Type} (n : Nat) (l : List (HloOp τ sig Val))
    (V : Valuation τ sig Val) : after l V = after (l.drop n) (after (l.take n) V) := by
  rw [← StableHlo.after_append, List.take_append_drop]

/-- The reference's operations that build `src` and `dst`. -/
abbrev rEdges : List (HloOp rτ rsig (Elt F)) := (Cert.ReferenceIdeal.ValueP.ops (F := F)).take 7
abbrev rRest1 : List (HloOp rτ rsig (Elt F)) := (Cert.ReferenceIdeal.ValueP.ops (F := F)).drop 7
/-- The first layer's product. -/
abbrev rProd1 : List (HloOp rτ rsig (Elt F)) := (rRest1 (F := F)).take 1
abbrev rRest2 : List (HloOp rτ rsig (Elt F)) := (rRest1 (F := F)).drop 1
/-- The first aggregation, bias and rectifier. -/
abbrev rMid : List (HloOp rτ rsig (Elt F)) := (rRest2 (F := F)).take 55
abbrev rRest3 : List (HloOp rτ rsig (Elt F)) := (rRest2 (F := F)).drop 55
/-- The second layer's product. -/
abbrev rProd2 : List (HloOp rτ rsig (Elt F)) := (rRest3 (F := F)).take 1
/-- The second aggregation, bias and log-softmax. -/
abbrev rTail : List (HloOp rτ rsig (Elt F)) := (rRest3 (F := F)).drop 1

/-- The reference's fold, stage after stage. -/
theorem ref_fold (A : Valuation rτ rsig (Elt F)) :
    after (Cert.ReferenceIdeal.ValueP.ops (F := F)) A
      = after rTail (after rProd2 (after rMid (after rProd1 (after rEdges A)))) := by
  rw [after_take_drop 7 (Cert.ReferenceIdeal.ValueP.ops (F := F)), after_take_drop 1 (rRest1 (F := F)),
    after_take_drop 55 (rRest2 (F := F)), after_take_drop 1 (rRest3 (F := F))]

/-! ## The edge lists -/

section Edges
variable (VK : Valuation kτ ksig (Elt F)) (VR : Valuation rτ rsig (Elt F))

/-- `src`: the same function of the edge array on both sides. -/
theorem edges_src (h1 : VK (Proc.devRef .tc ka1) = VR (Proc.devRef .tc ra1)) :
    after (Cert.KernelIdeal.Gen.hostOps0 (F := F)) VK (Proc.devRef .tc kv3) = after rEdges VR (Proc.devRef .tc rv3) := by
  simp only [rEdges, Cert.ReferenceIdeal.ValueP.ops, List.take_succ_cons, List.take_zero]
  after_results
  rw [h1]
  rfl

/-- `dst`: the same function of the edge array on both sides. -/
theorem edges_dst (h1 : VK (Proc.devRef .tc ka1) = VR (Proc.devRef .tc ra1)) :
    after (Cert.KernelIdeal.Gen.hostOps0 (F := F)) VK (Proc.devRef .tc kv6) = after rEdges VR (Proc.devRef .tc rv6) := by
  simp only [rEdges, Cert.ReferenceIdeal.ValueP.ops, List.take_succ_cons, List.take_zero]
  after_results
  rw [h1]
  rfl

end Edges

/-! ## The first aggregation, bias and rectifier -/

section Mid
variable (VK : Valuation kτ ksig (Elt F)) (VR : Valuation rτ rsig (Elt F))

set_option maxHeartbeats 4000000 in
/-- The hidden activations: the same function, on both sides, of the first product, `src`, `dst` and the first bias. -/
theorem mid_hidden (h7 : VK (Proc.devRef .tc kv7) = VR (Proc.devRef .tc rv7))
    (h3 : VK (Proc.devRef .tc kv3) = VR (Proc.devRef .tc rv3))
    (h6 : VK (Proc.devRef .tc kv6) = VR (Proc.devRef .tc rv6))
    (hb : VK (Proc.devRef .tc ka3) = VR (Proc.devRef .tc ra3)) :
    after (Cert.KernelIdeal.Gen.hostOps1_3 (F := F)) (after Cert.KernelIdeal.Gen.hostOps1_2
        (after Cert.KernelIdeal.Gen.hostOps1_1 (after Cert.KernelIdeal.Gen.hostOps1 VK))) (Proc.devRef .tc kv47)
      = after rMid VR (Proc.devRef .tc rv47) := by
  simp only [rMid, rRest2, rRest1, Cert.ReferenceIdeal.ValueP.ops, List.take_succ_cons, List.take_zero,
    List.drop_succ_cons, List.drop_zero]
  after_results_simp
  rw [h7, h3, h6, hb]
  rfl

end Mid

/-! ## The second aggregation, bias and log-softmax -/

section Tail
variable (VK : Valuation kτ ksig (Elt F)) (VR : Valuation rτ rsig (Elt F))

set_option maxHeartbeats 4000000 in
/-- The result: the same function, on both sides, of the second product, `src`, `dst` and the second bias. -/
theorem tail_result (h48 : VK (Proc.devRef .tc kv48) = VR (Proc.devRef .tc rv48))
    (h3 : VK (Proc.devRef .tc kv3) = VR (Proc.devRef .tc rv3))
    (h6 : VK (Proc.devRef .tc kv6) = VR (Proc.devRef .tc rv6))
    (hb : VK (Proc.devRef .tc ka5) = VR (Proc.devRef .tc ra5)) :
    after (Cert.KernelIdeal.Gen.hostOps2_3 (F := F)) (after Cert.KernelIdeal.Gen.hostOps2_2
        (after Cert.KernelIdeal.Gen.hostOps2_1 (after Cert.KernelIdeal.Gen.hostOps2 VK))) (Proc.devRef .tc kv88)
      = after rTail VR (Proc.devRef .tc rv88) := by
  simp only [rTail, rRest3, rRest2, rRest1, Cert.ReferenceIdeal.ValueP.ops, List.take_succ_cons, List.take_zero,
    List.drop_succ_cons, List.drop_zero]
  after_results_simp
  rw [h48, h3, h6, hb]
  rfl

end Tail

/-! ## What a stage does not write, it keeps

Each fact below is "this buffer is the result of none of the stage's operations", decided reference by reference. -/

/-- Opens a slice of the reference's operation list into its literal operations. -/
macro "open_ref_slice" : tactic =>
  `(tactic| simp only [rEdges, rProd1, rMid, rProd2, rTail, rRest1, rRest2, rRest3, Cert.ReferenceIdeal.ValueP.ops,
      List.take_succ_cons, List.take_zero, List.drop_succ_cons, List.drop_zero])

/-- A buffer that neither side's stage writes: agreement before the stage is agreement after it. -/
macro "kept_by_both" h:term : tactic =>
  `(tactic| exact Eq.trans (by after_results_simp) (Eq.trans $h (Eq.symm (by open_ref_slice; after_results_simp))))

section Keeps
variable (VK : Valuation kτ ksig (Elt F)) (VR : Valuation rτ rsig (Elt F))

/-- The stage that builds `src` and `dst` writes no argument. -/
theorem edges_keep (h0 : VK (Proc.devRef .tc ka0) = VR (Proc.devRef .tc ra0))
    (h2 : VK (Proc.devRef .tc ka2) = VR (Proc.devRef .tc ra2)) (h3 : VK (Proc.devRef .tc ka3) = VR (Proc.devRef .tc ra3))
    (h4 : VK (Proc.devRef .tc ka4) = VR (Proc.devRef .tc ra4)) (h5 : VK (Proc.devRef .tc ka5) = VR (Proc.devRef .tc ra5)) :
    after (Cert.KernelIdeal.Gen.hostOps0 (F := F)) VK (Proc.devRef .tc ka0) = after rEdges VR (Proc.devRef .tc ra0)
    ∧ after (Cert.KernelIdeal.Gen.hostOps0 (F := F)) VK (Proc.devRef .tc ka2) = after rEdges VR (Proc.devRef .tc ra2)
    ∧ after (Cert.KernelIdeal.Gen.hostOps0 (F := F)) VK (Proc.devRef .tc ka3) = after rEdges VR (Proc.devRef .tc ra3)
    ∧ after (Cert.KernelIdeal.Gen.hostOps0 (F := F)) VK (Proc.devRef .tc ka4) = after rEdges VR (Proc.devRef .tc ra4)
    ∧ after (Cert.KernelIdeal.Gen.hostOps0 (F := F)) VK (Proc.devRef .tc ka5) = after rEdges VR (Proc.devRef .tc ra5) := by
  refine ⟨?_, ?_, ?_, ?_, ?_⟩
  · kept_by_both h0
  · kept_by_both h2
  · kept_by_both h3
  · kept_by_both h4
  · kept_by_both h5

/-- The first aggregation writes neither `src`, `dst`, the second weight nor the second bias. -/
theorem mid_keep (h3 : VK (Proc.devRef .tc kv3) = VR (Proc.devRef .tc rv3))
    (h6 : VK (Proc.devRef .tc kv6) = VR (Proc.devRef .tc rv6))
    (h4 : VK (Proc.devRef .tc ka4) = VR (Proc.devRef .tc ra4)) (h5 : VK (Proc.devRef .tc ka5) = VR (Proc.devRef .tc ra5)) :
    after (Cert.KernelIdeal.Gen.hostOps1_3 (F := F)) (after Cert.KernelIdeal.Gen.hostOps1_2
        (after Cert.KernelIdeal.Gen.hostOps1_1 (after Cert.KernelIdeal.Gen.hostOps1 VK))) (Proc.devRef .tc kv3)
      = after rMid VR (Proc.devRef .tc rv3)
    ∧ after (Cert.KernelIdeal.Gen.hostOps1_3 (F := F)) (after Cert.KernelIdeal.Gen.hostOps1_2
        (after Cert.KernelIdeal.Gen.hostOps1_1 (after Cert.KernelIdeal.Gen.hostOps1 VK))) (Proc.devRef .tc kv6)
      = after rMid VR (Proc.devRef .tc rv6)
    ∧ after (Cert.KernelIdeal.Gen.hostOps1_3 (F := F)) (after Cert.KernelIdeal.Gen.hostOps1_2
        (after Cert.KernelIdeal.Gen.hostOps1_1 (after Cert.KernelIdeal.Gen.hostOps1 VK))) (Proc.devRef .tc ka4)
      = after rMid VR (Proc.devRef .tc ra4)
    ∧ after (Cert.KernelIdeal.Gen.hostOps1_3 (F := F)) (after Cert.KernelIdeal.Gen.hostOps1_2
        (after Cert.KernelIdeal.Gen.hostOps1_1 (after Cert.KernelIdeal.Gen.hostOps1 VK))) (Proc.devRef .tc ka5)
      = after rMid VR (Proc.devRef .tc ra5) := by
  refine ⟨?_, ?_, ?_, ?_⟩
  · kept_by_both h3
  · kept_by_both h6
  · kept_by_both h4
  · kept_by_both h5

end Keeps

/-! ## The two products, and the chain from the launch memories to the result -/

section Chain

open Cert.KernelIdeal.Gen Cert.KernelIdeal.Layers

/-- The reference's dimension numbers of the first product are the plain ones. -/
theorem rdims1_plain : Cert.ReferenceIdeal.dot_S100000x512_S512x16_S100000x16_1_0_0_1_n_n = DotDims.plain 100000 512 16 := rfl
/-- The reference's dimension numbers of the second product are the plain ones. -/
theorem rdims2_plain : Cert.ReferenceIdeal.dot_S100000x16_S16x7_S100000x7_1_0_0_1_n_n = DotDims.plain 100000 16 7 := rfl

variable (m : (ℓ : Loc knD kτ ksig) → Buf (Elt Ideal) ℓ) (ρ : Dev knD → PrngReg)
variable (VR : Valuation rτ rsig (Elt Ideal))

/-- After the first region the product buffer holds what the reference's contraction writes, when the region's two
    input arrays are the reference's. -/
theorem prod1_agree (c : Dev knD) (hx : W1 m ρ c (Proc.devRef .tc ka0) = VR (Proc.devRef .tc ra0))
    (hw : W1 m ρ c (Proc.devRef .tc ka2) = VR (Proc.devRef .tc ra2)) :
    W2 m ρ c (Proc.devRef .tc kv7) = after rProd1 VR (Proc.devRef .tc rv7) := by
  refine ((W2_arr m ρ c 2).trans (region0_array (V1 m ρ) c)).trans ?_
  open_ref_slice
  after_results_simp
  rw [rdims1_plain, ← hx, ← hw]

/-- After the second region the product buffer holds what the reference's contraction writes, when the region's two
    input arrays are the reference's. -/
theorem prod2_agree (c : Dev knD) (hx : W6 m ρ c (Proc.devRef .tc kv47) = VR (Proc.devRef .tc rv47))
    (hw : W6 m ρ c (Proc.devRef .tc ka4) = VR (Proc.devRef .tc ra4)) :
    W7 m ρ c (Proc.devRef .tc kv48) = after rProd2 VR (Proc.devRef .tc rv48) := by
  refine ((W7_arr m ρ c 2).trans (region1_array (V6 m ρ) c)).trans ?_
  open_ref_slice
  after_results_simp
  rw [rdims2_plain, ← hx, ← hw]

/-- A buffer that is none of the first region's arrays and not the reference's product buffer is kept by both. -/
macro "kept_by_prod1" h:term : tactic =>
  `(tactic| exact Eq.trans (W2_of_ne _ _ _ _ (by decide)) (Eq.trans $h (Eq.symm (by open_ref_slice; after_results_simp))))
macro "kept_by_prod2" h:term : tactic =>
  `(tactic| exact Eq.trans (W7_of_ne _ _ _ _ (by decide)) (Eq.trans $h (Eq.symm (by open_ref_slice; after_results_simp))))

/-- THE RESULT: the kernel's result buffer at the end of its run holds what the reference's operations, folded over a
    launch memory with the same arguments, leave in the reference's result buffer. -/
theorem result_eq (m' : (ℓ : Loc rnD rτ rsig) → Buf (Elt Ideal) ℓ) (c : Dev knD)
    (h0 : m' ((c.tc : Thread rnD rτ).loc ra0) = m ((c.tc : Thread knD kτ).loc ka0))
    (h1 : m' ((c.tc : Thread rnD rτ).loc ra1) = m ((c.tc : Thread knD kτ).loc ka1))
    (h2 : m' ((c.tc : Thread rnD rτ).loc ra2) = m ((c.tc : Thread knD kτ).loc ka2))
    (h3 : m' ((c.tc : Thread rnD rτ).loc ra3) = m ((c.tc : Thread knD kτ).loc ka3))
    (h4 : m' ((c.tc : Thread rnD rτ).loc ra4) = m ((c.tc : Thread knD kτ).loc ka4))
    (h5 : m' ((c.tc : Thread rnD rτ).loc ra5) = m ((c.tc : Thread knD kτ).loc ka5)) :
    W11 m ρ c (Proc.devRef .tc kv88)
      = after (Cert.ReferenceIdeal.ValueP.ops (F := Ideal)) (launchContents m' c) (Proc.devRef .tc rv88) := by
  rw [ref_fold]
  -- the launch memories agree on the arguments
  have e0 : W0 m ρ c (Proc.devRef .tc ka0) = launchContents m' c (Proc.devRef .tc ra0) := h0.symm
  have e1 : W0 m ρ c (Proc.devRef .tc ka1) = launchContents m' c (Proc.devRef .tc ra1) := h1.symm
  have e2 : W0 m ρ c (Proc.devRef .tc ka2) = launchContents m' c (Proc.devRef .tc ra2) := h2.symm
  have e3 : W0 m ρ c (Proc.devRef .tc ka3) = launchContents m' c (Proc.devRef .tc ra3) := h3.symm
  have e4 : W0 m ρ c (Proc.devRef .tc ka4) = launchContents m' c (Proc.devRef .tc ra4) := h4.symm
  have e5 : W0 m ρ c (Proc.devRef .tc ka5) = launchContents m' c (Proc.devRef .tc ra5) := h5.symm
  -- after the edge lists
  have s3 : W1 m ρ c (Proc.devRef .tc kv3) = after rEdges (launchContents m' c) (Proc.devRef .tc rv3) :=
    edges_src (W0 m ρ c) _ e1
  have s6 : W1 m ρ c (Proc.devRef .tc kv6) = after rEdges (launchContents m' c) (Proc.devRef .tc rv6) :=
    edges_dst (W0 m ρ c) _ e1
  obtain ⟨a0, a2, a3, a4, a5⟩ := edges_keep (W0 m ρ c) (launchContents m' c) e0 e2 e3 e4 e5
  -- after the first product
  have p7 : W2 m ρ c (Proc.devRef .tc kv7) = after rProd1 (after rEdges (launchContents m' c)) (Proc.devRef .tc rv7) :=
    prod1_agree m ρ _ c a0 a2
  have p3 : W2 m ρ c (Proc.devRef .tc kv3) = after rProd1 (after rEdges (launchContents m' c)) (Proc.devRef .tc rv3) := by
    kept_by_prod1 s3
  have p6 : W2 m ρ c (Proc.devRef .tc kv6) = after rProd1 (after rEdges (launchContents m' c)) (Proc.devRef .tc rv6) := by
    kept_by_prod1 s6
  have pa3 : W2 m ρ c (Proc.devRef .tc ka3) = after rProd1 (after rEdges (launchContents m' c)) (Proc.devRef .tc ra3) := by
    kept_by_prod1 a3
  have pa4 : W2 m ρ c (Proc.devRef .tc ka4) = after rProd1 (after rEdges (launchContents m' c)) (Proc.devRef .tc ra4) := by
    kept_by_prod1 a4
  have pa5 : W2 m ρ c (Proc.devRef .tc ka5) = after rProd1 (after rEdges (launchContents m' c)) (Proc.devRef .tc ra5) := by
    kept_by_prod1 a5
  -- after the first aggregation
  have q47 : W6 m ρ c (Proc.devRef .tc kv47)
      = after rMid (after rProd1 (after rEdges (launchContents m' c))) (Proc.devRef .tc rv47) :=
    mid_hidden (W2 m ρ c) _ p7 p3 p6 pa3
  obtain ⟨q3, q6, qa4, qa5⟩ := mid_keep (W2 m ρ c) (after rProd1 (after rEdges (launchContents m' c))) p3 p6 pa4 pa5
  -- after the second product
  have r48 : W7 m ρ c (Proc.devRef .tc kv48)
      = after rProd2 (after rMid (after rProd1 (after rEdges (launchContents m' c)))) (Proc.devRef .tc rv48) :=
    prod2_agree m ρ _ c q47 qa4
  have r3 : W7 m ρ c (Proc.devRef .tc kv3)
      = after rProd2 (after rMid (after rProd1 (after rEdges (launchContents m' c)))) (Proc.devRef .tc rv3) := by
    kept_by_prod2 q3
  have r6 : W7 m ρ c (Proc.devRef .tc kv6)
      = after rProd2 (after rMid (after rProd1 (after rEdges (launchContents m' c)))) (Proc.devRef .tc rv6) := by
    kept_by_prod2 q6
  have ra5' : W7 m ρ c (Proc.devRef .tc ka5)
      = after rProd2 (after rMid (after rProd1 (after rEdges (launchContents m' c)))) (Proc.devRef .tc ra5) := by
    kept_by_prod2 qa5
  -- the second aggregation and the log-softmax
  exact tail_result (W7 m ρ c) _ r48 r3 r6 ra5'

end Chain

end Cert.Stages

end
-- ==== Proof.lean ====
/-
  A two-layer graph convolution on 100000 nodes with 3200000 given edges and one self loop per node, against its
  jnp reference, over the extended reals.

  Each layer is `out = A · (h · W) + b`, with `A` the degree-normalised adjacency: the in-degrees are a scatter-add of
  ones along `dst`, each edge's weight is the product of the inverse square roots of its endpoints' degrees (zero
  where a degree is not positive), the messages are the rows of `h · W` gathered along `src` and scaled by the edge
  weights, and they are scatter-added along `dst`; a rectifier follows the first layer and a row-wise log-softmax the
  second. The kernel computes the two products `h · W` in a pipeline over 50 blocks of 2000 rows, the operands first
  narrowed to bf16 and the products accumulated in f32 from zero; the reference contracts the whole arrays once.
  Everything else is the same sequence of operations in both programs.

  On the extended reals the narrowing is the identity and a block of rows of a product is the product of that block of
  rows, so each pipeline leaves exactly the reference's product in its output array (module Layers). Both programs
  then apply the same functions, stage by stage, to contents that agree (module Stages), and so end with the same
  result. No law of the extended reals beyond `0 + s = s` for the accumulator is used: the inputs' finiteness is not
  needed, and the edge indices may be anything, since both programs treat an out-of-range index alike.

  The frames of the two kernel programs are the generated ones; the reference's frame is its run with the result
  dropped; the idealization rewrote nothing, so there is nothing to preserve.
-/
import proofs.«160951_j2946347565080_1_alg».proof.Defs
import proofs.«160951_j2946347565080_1_alg».proof.Proof.Gen.Kernel
import proofs.«160951_j2946347565080_1_alg».proof.Proof.Gen.Kernel.Skeleton
import proofs.«160951_j2946347565080_1_alg».proof.Proof.Gen.Kernel.Launch
import proofs.«160951_j2946347565080_1_alg».proof.Proof.Gen.Kernel.Points
import proofs.«160951_j2946347565080_1_alg».proof.Proof.Gen.Kernel.Frame
import proofs.«160951_j2946347565080_1_alg».proof.Proof.Gen.KernelIdeal
import proofs.«160951_j2946347565080_1_alg».proof.Proof.Gen.KernelIdeal.Skeleton
import proofs.«160951_j2946347565080_1_alg».proof.Proof.Gen.KernelIdeal.Launch
import proofs.«160951_j2946347565080_1_alg».proof.Proof.Gen.KernelIdeal.Points
import proofs.«160951_j2946347565080_1_alg».proof.Proof.Gen.KernelIdeal.Frame
import proofs.«160951_j2946347565080_1_alg».proof.Proof.Gen.ReferenceIdeal
import proofs.«160951_j2946347565080_1_alg».proof.Proof.Gen.Pre_finite_inputs
import proofs.«160951_j2946347565080_1_alg».proof.Proof.KernelRun
import proofs.«160951_j2946347565080_1_alg».proof.Proof.RefRun
import proofs.«160951_j2946347565080_1_alg».proof.Proof.Stages
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same result: the kernel's result buffer
    holds the fold of its host stretches and its two regions' arrays, the reference's the fold of its operations, and
    the two folds agree stage by stage. -/
theorem algebraic : Cert.algebraic_KernelIdeal_ReferenceIdeal := by
  intro m ρ m' ρ' _ hagree
  refine ⟨fun c => Cert.KernelIdeal.Gen.W11 m ρ c (Proc.devRef .tc Cert.KernelIdeal.main_v88),
    Cert.KernelIdeal.Gen.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  exact (Cert.Stages.result_eq m ρ m' c h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
